-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .f32) (main_arg1 : FVec F S2048x2048 .f32) (main_arg2 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S1x2048, .f32⟩
  | .hbm, ⟨4, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .f32⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  dot_S256x2048_S2048x2048_S256x2048_1_1_0_0_n_n_wf : DotDims.WF S256x2048 S2048x2048 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S4096x2048.size a
  hwx0_3 : ∀ i : grid0.Coords, EltTy.bits .f32 = 32 ∨ (Rect.block (s := S4096x2048) S256x2048.size (cc0_transform_3 i) (hinb0_3 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256x512 : Shape := ⟨2, ![256, 512]⟩
abbrev S512x2048 : Shape := ⟨2, ![512, 2048]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S1x2048, .f32⟩
  | .hbm, ⟨4, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x512, .f32⟩
  | .local _ .vmem, ⟨3, _⟩ => ⟨S256x512, .f32⟩
  | .local _ .vmem, ⟨4, _⟩ => ⟨S512x2048, .f32⟩
  | .local _ .vmem, ⟨5, _⟩ => ⟨S512x2048, .f32⟩
  | .local _ .vmem, ⟨6, _⟩ => ⟨S1x512, .f32⟩
  | .local _ .vmem, ⟨7, _⟩ => ⟨S1x512, .f32⟩
  | .local _ .vmem, ⟨8, _⟩ => ⟨S256x512, .f32⟩
  | .local _ .vmem, ⟨9, _⟩ => ⟨S256x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S512x2048_S512x2048_0_0 : ∀ a, (![0, 0] : Fin 2 → Nat) a + S512x2048.size a ≤ S512x2048.size a
  h_S512x2048 : 0 < S512x2048.numel
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  dot_S256x2048_S512x2048_S256x512_1_1_0_0_n_n_wf : DotDims.WF S256x2048 S512x2048 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S4096x2048.size a
  hwx0_1 : ∀ i : grid0.Coords, EltTy.bits .f32 = 32 ∨ (Rect.block (s := S4096x2048) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S2048x2048.size a
  hwx0_2 : ∀ i : grid0.Coords, EltTy.bits .f32 = 32 ∨ (Rect.block (s := S2048x2048) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x2048.size a
  hwx0_3 : ∀ i : grid0.Coords, EltTy.bits .f32 = 32 ∨ (Rect.block (s := S1x2048) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S4096x2048.size a
  hwx0_4 : ∀ i : grid0.Coords, EltTy.bits .f32 = 32 ∨ (Rect.block (s := S4096x2048) S256x512.size (cc0_transform_4 i) (hinb0_4 i)).WholeWords (EltTy.packing .f32)

variable [Facts₀]

def dot_S256x2048_S512x2048_S256x512_1_1_0_0_n_n : DotDims S256x2048 S512x2048 S256x512 where
  lhsContracting := [1]
  rhsContracting := [1]
  lhsNonContracting := [0]
  rhsNonContracting := [0]
  lhsBatch := []
  rhsBatch := []
  wf := dot_S256x2048_S512x2048_S256x512_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.Spec.lean ====
/-
  The function both programs compute, over the extended reals:
      out[p, q] = (x[p, q] + ∑ k, x[p, k] * W[q, k]) + b[q]
  for x of 4096 rows and 2048 columns, W a 2048 by 2048 matrix stored row = output feature, column =
  input feature (so the product is x times the transpose of W), and b a row of 2048 entries added to
  every row. The residual x[p, q] is added to the product first and the bias last; both programs
  group the two additions this way, so no law of the extended reals beyond re-indexing a finite sum
  is needed to join them.
-/
import Idealize.ShloMosaic.PureOps.Ideal
import Idealize.ShloMosaic.Lib.ValueIdx

noncomputable section

open scoped BigOperators

namespace Cert.Spec

open Idealize.ShloMosaic Idealize.ShloMosaic.ValueIdx

/-- The shape of x and of the result. -/
abbrev Sx : Shape := ⟨2, ![4096, 2048]⟩
/-- The shape of the weight matrix. -/
abbrev Sw : Shape := ⟨2, ![2048, 2048]⟩
/-- The shape of the bias as the programs hold it after the reshape: one row of 2048. -/
abbrev Sb : Shape := ⟨2, ![1, 2048]⟩

/-- The result at row `p`, column `q`: the residual entry plus row `p` of x against row `q` of W,
    then the bias entry of column `q`. -/
def residAt (x : Sx.Idx → EReal) (w : Sw.Idx → EReal) (b : Sb.Idx → EReal) (p : Fin 4096) (q : Fin 2048) : EReal :=
  (x (ix2 p q) + ∑ k : Fin 2048, x (ix2 p k) * w (ix2 q k)) + b (ix2 (0 : Fin 1) q)

/-- The whole result array. -/
def resid (x : Sx.Idx → EReal) (w : Sw.Idx → EReal) (b : Sb.Idx → EReal) : Sx.Idx → EReal :=
  fun i => residAt x w b (i 0) (i 1)

theorem resid_ix2 (x : Sx.Idx → EReal) (w : Sw.Idx → EReal) (b : Sb.Idx → EReal) (p : Fin 4096) (q : Fin 2048) :
    resid x w b (ix2 p q) = residAt x w b p q := rfl

end Cert.Spec

end
-- ==== Proof.LibDotNT.lean ====
/-
  A rank-2 matrix product with the RIGHT operand read transposed, at an index, at the ideal
  instance (floats are the extended reals).

  The product of an `[M, K]` array by the transpose of an `[N, K]` array contracts axis 1 of both:
      (l · rᵀ)[p, q] = ∑ k : Fin K, l[p, k] * r[q, k].
  Written as the accelerator's multiply-accumulate into an accumulator that is zero everywhere, it
  is at the ideal instance exactly that sum: no rounding and no order of summation is left in it.
  The contraction index set of a product with ONE contracted axis is a rank-1 index set; re-indexed
  by its coordinate the sum runs over `Fin K`.
-/
import Idealize.ShloMosaic.PureOps.Ideal
import Idealize.ShloMosaic.PureOps.Ideal.Laws
import Idealize.ShloMosaic.Lib.ValueIdx

noncomputable section

open scoped BigOperators

namespace Idealize.ShloMosaic.DotNT

open Idealize.ShloMosaic Idealize.ShloMosaic.ValueIdx

/-- [M,K] x [N,K] -> [M,N], contracting axis 1 of both (the right operand read transposed): the
    result's axis 0 is the left operand's axis 0 and its axis 1 the right operand's axis 0. -/
abbrev ntDims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

section NT
variable {M K N : Nat}
  (wf : DotDims.WF ⟨2, ![M, K]⟩ ⟨2, ![N, K]⟩ ⟨2, ![M, N]⟩ [1] [1] [0] [0] [] [])

/-- The left operand's axis 0 is its free axis: its coordinate is the result's row, whatever the
    contraction index. -/
private theorem nt_lhs0 (j : (⟨2, ![M, N]⟩ : Shape).Idx) (k : (ntDims M K N wf).contr.Idx) :
    ((ntDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem nt_lhs1 (j : (⟨2, ![M, N]⟩ : Shape).Idx) (c : Fin K) :
    ((ntDims M K N wf).lhsIdx j ((contrEquiv1 (ntDims M K N wf) K rfl rfl).symm c) 1).val = c.val := by
  rw [(ntDims M K N wf).lhsIdx_val_of_single rfl]
  exact contrEquiv1_symm_val (ntDims M K N wf) K rfl rfl c

/-- The right operand's axis 0 is its free axis: its coordinate is the result's column, whatever
    the contraction index. -/
private theorem nt_rhs0 (j : (⟨2, ![M, N]⟩ : Shape).Idx) (k : (ntDims M K N wf).contr.Idx) :
    ((ntDims M K N wf).rhsIdx j k 0).val = (j 1).val := by
  unfold DotDims.rhsIdx
  rw [dif_neg (show (0 : Fin 2) ∉ ([] : List (Fin 2)) by decide),
    dif_pos (show (0 : Fin 2) ∈ [(0 : Fin 2)] by decide)]
  rfl

/-- The right operand's axis 1 is the contracted one: at the contraction index with coordinate `c`
    its coordinate is `c`. -/
private theorem nt_rhs1 (j : (⟨2, ![M, N]⟩ : Shape).Idx) (c : Fin K) :
    ((ntDims M K N wf).rhsIdx j ((contrEquiv1 (ntDims M K N wf) K rfl rfl).symm c) 1).val = c.val := by
  rw [(ntDims M K N wf).rhsIdx_val_of_single rfl]
  exact contrEquiv1_symm_val (ntDims M K N wf) K rfl rfl c

/-- The contraction's sum at `(p, q)`, over the contraction index set and through the operand
    index maps, is the sum over the contracted coordinate `k : Fin K` of `l[p, k] * r[q, k]`. -/
theorem nt_sum (l : (⟨2, ![M, K]⟩ : Shape).Idx → EReal) (r : (⟨2, ![N, K]⟩ : Shape).Idx → EReal)
    (p : Fin M) (q : Fin N) :
    ∑ k : (ntDims M K N wf).contr.Idx,
        l ((ntDims M K N wf).lhsIdx (ix2 p q) k) * r ((ntDims M K N wf).rhsIdx (ix2 p q) k)
      = ∑ k : Fin K, l (ix2 p k) * r (ix2 q k) := by
  rw [← Equiv.sum_comp (contrEquiv1 (ntDims M K N wf) K rfl rfl).symm]
  refine Finset.sum_congr rfl fun c _ => ?_
  have hl : (ntDims M K N wf).lhsIdx (ix2 p q) ((contrEquiv1 (ntDims M K N wf) K rfl rfl).symm c)
      = ix2 p c := by
    funext a; apply Fin.ext
    match a with
    | ⟨0, _⟩ => exact nt_lhs0 wf (ix2 p q) _
    | ⟨1, _⟩ => exact nt_lhs1 wf (ix2 p q) c
  have hr : (ntDims M K N wf).rhsIdx (ix2 p q) ((contrEquiv1 (ntDims M K N wf) K rfl rfl).symm c)
      = ix2 q c := by
    funext a; apply Fin.ext
    match a with
    | ⟨0, _⟩ => exact nt_rhs0 wf (ix2 p q) _
    | ⟨1, _⟩ => exact nt_rhs1 wf (ix2 p q) c
  rw [hl, hr]

end NT

/-- The accelerator's product of `[M, K]` by the transpose of `[N, K]` accumulated into the
    all-zero array, at `(p, q)`: `∑ k, l[p, k] * r[q, k]` in the extended reals. -/
theorem matmul_zero_nt_apply {M K N : Nat} {φ₁ φ₂ : FTy}
    (wf : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    FloatOps.matmul (ntDims M K N wf) prec l r (constant ⟨2, ![M, N]⟩ .f32 0x00000000#32) (ix2 p q)
      = ∑ k : Fin K, l (ix2 p k) * r (ix2 q k) := by
  rw [Ideal.matmul_constant_zero_apply]
  exact nt_sum wf l r p q

end Idealize.ShloMosaic.DotNT

end
-- ==== Proof.KernelValue.lean ====
import proofs.«131591_g2000205376503332_pallasbulk_940_2_alg».proof.Proof.Gen.KernelIdeal.Value
import proofs.«131591_g2000205376503332_pallasbulk_940_2_alg».proof.Proof.Spec
import proofs.«131591_g2000205376503332_pallasbulk_940_2_alg».proof.Proof.LibDotNT
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

/-
  The kernel's result array is the target function of its argument arrays.

  The kernel walks the 4096 rows of x in 16 blocks of 256 rows. At each block it holds the block of
  x, the whole weight matrix W and the bias row b, and writes
      block[p, q] = (x[p, q] + ∑ k, x[p, k] * W[q, k]) + b[q]
  back over the same 256 rows of the result. Row p of block t is row 256 t + p of the array, the
  weight matrix and the bias row are the same at every block, and the 16 blocks tile the 4096 rows:
  so the array after the run is the target function at every index.
-/

set_option maxRecDepth 16384

noncomputable section

open scoped BigOperators

namespace Cert.KernelIdeal.KValue

open Cert.KernelIdeal Cert.KernelIdeal.Gen Cert.KernelIdeal.Value Idealize.ShloMosaic Idealize.ShloMosaic.TcCoe
  Idealize.ShloMosaic.ValueIdx Idealize.SL.Sem
open Idealize.ShloMosaic.Pipeline (Dat)

/-! ## One block's arithmetic at an index -/

/-- The body's product contracts axis 1 of both operands: it is the product of the block of x by the
    transpose of W. -/
theorem dot_is_nt : dot_S256x2048_S2048x2048_S256x2048_1_1_0_0_n_n
    = DotNT.ntDims 256 2048 2048 dot_S256x2048_S2048x2048_S256x2048_1_1_0_0_n_n_wf := rfl

/-- What the body computes from a block `x0` of x, the weight matrix `x1` and the bias row `x2`, at
    row `p` and column `q` of the block: the residual entry plus row `p` of the block against row `q`
    of the weights, then the bias entry of column `q`. -/
theorem block_apply (x0 : Vec Ideal S256x2048 .f32) (x1 : Vec Ideal S2048x2048 .f32) (x2 : Vec Ideal S1x2048 .f32)
    (p : Fin 256) (q : Fin 2048) :
    k0_pay1 x0 x1 x2 (ix2 p q)
      = (x0 (ix2 p q) + ∑ k : Fin 2048, x0 (ix2 p k) * x1 (ix2 q k)) + x2 (ix2 (0 : Fin 1) q) := by
  unfold k0_pay1
  show ((x0 (ix2 p q) : EReal)
        + (FloatOps.matmul (F := Ideal) (φ₁ := .f32) (φ₂ := .f32) dot_S256x2048_S2048x2048_S256x2048_1_1_0_0_n_n none x0 x1
            (constant (F := Ideal) S256x2048 .f32 0x00000000#32) (ix2 p q) : EReal))
      + (broadcastTo S256x2048 (shapeCast S1x2048 x2 shapeCasts_S1x2048_S1x2048) broadcasts_S1x2048_S256x2048 (ix2 p q) : EReal) = _
  rw [dot_is_nt, shapeCast_self]
  refine congrArg₂ (· + ·) (congrArg (x0 (ix2 p q) + ·) ?_) ?_
  · exact DotNT.matmul_zero_nt_apply _ none x0 x1 p q
  · exact broadcastTo_1b_ab_apply x2 _ p q

/-! ## Where a block sits in its array -/

variable (m : (ℓ : Loc nD τ sig) → Buf (Elt Ideal) ℓ) (ρ : Dev nD → PrngReg)

theorem zero_offsets : (![0, 0] : Fin 2 → Nat) = fun _ => 0 :=
  funext fun a => by match a with | ⟨0, _⟩ => rfl | ⟨1, _⟩ => rfl

/-- The grid has 16 points. -/
theorem point_lt (t : Fin cfg0.N) : t.val < 16 := lt_of_lt_of_eq t.isLt N_0

/-- The index maps, decided once over the 16 grid points: the blocks of x and of the result
    are at block row `t`, block column 0; the weight matrix and the bias row are one block each, at
    block index (0, 0) whatever the point. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the block at point `t` is row `256 t + p` of the array. -/
def row (t : Fin cfg0.N) (p : Fin 256) : Fin 4096 :=
  ⟨256 * t.val + p.val, by have := point_lt t; have := p.isLt; omega⟩

/-- An entry of the block of x at point `t` sits in x at the block's row offset, same column. -/
theorem x_block_emb (t : Fin cfg0.N) (p : Fin 256) (k : Fin 2048) :
    ((cfg0.win 0).blk t).view.emb (ix2 p k) = ix2 (row t p) k := by
  obtain ⟨e0, e1, -⟩ := index_facts t
  funext a; apply Fin.ext
  match a with
  | ⟨0, _⟩ => show win0_0.index t (0 : Fin 2) * 256 + 1 * p.val = 256 * t.val + p.val; omega
  | ⟨1, _⟩ => show win0_0.index t (1 : Fin 2) * 2048 + 1 * k.val = k.val; omega

/-- The weight matrix's one block is the whole matrix. -/
theorem w_block_emb (t : Fin cfg0.N) (q : Fin 2048) (k : Fin 2048) :
    ((cfg0.win 1).blk t).view.emb (ix2 q k) = ix2 q k := by
  obtain ⟨-, -, e0, e1, -⟩ := index_facts t
  funext a; apply Fin.ext
  match a with
  | ⟨0, _⟩ => show win0_1.index t (0 : Fin 2) * 2048 + 1 * q.val = q.val; omega
  | ⟨1, _⟩ => show win0_1.index t (1 : Fin 2) * 2048 + 1 * k.val = k.val; omega

/-- The bias row's one block is the whole row. -/
theorem b_block_emb (t : Fin cfg0.N) (u : Fin 1) (q : Fin 2048) :
    ((cfg0.win 2).blk t).view.emb (ix2 u q) = ix2 u q := by
  obtain ⟨-, -, -, -, e0, e1, -⟩ := index_facts t
  funext a; apply Fin.ext
  match a with
  | ⟨0, _⟩ => show win0_2.index t (0 : Fin 2) * 1 + 1 * u.val = u.val; omega
  | ⟨1, _⟩ => show win0_2.index t (1 : Fin 2) * 2048 + 1 * q.val = q.val; omega

/-- An entry of the result's block at point `t` sits in the result at the same row offset as x's. -/
theorem out_block_emb (t : Fin cfg0.N) (p : Fin 256) (q : Fin 2048) :
    ((cfg0.win 3).blk t).view.emb (ix2 p q) = ix2 (row t p) q := by
  obtain ⟨-, -, -, -, -, -, e0, e1⟩ := index_facts t
  funext a; apply Fin.ext
  match a with
  | ⟨0, _⟩ => show win0_3.index t (0 : Fin 2) * 256 + 1 * p.val = 256 * t.val + p.val; omega
  | ⟨1, _⟩ => show win0_3.index t (1 : Fin 2) * 2048 + 1 * q.val = q.val; omega

/-- The block of x the body reads at point `t`, entry by entry. -/
theorem x_block (c : Dev nD) (t : Fin cfg0.N) (p : Fin 256) (k : Fin 2048) :
    iblk m c 0 t (ix2 p k) = V m c main_arg0 (ix2 (row t p) k) := by
  show V m c main_arg0 (((cfg0.win 0).blk t).view.emb (ix2 p k)) = _
  rw [x_block_emb]

/-- The weights the body reads at any point are the weight matrix. -/
theorem w_block (c : Dev nD) (t : Fin cfg0.N) (q : Fin 2048) (k : Fin 2048) :
    iblk m c 1 t (ix2 q k) = V m c main_arg1 (ix2 q k) := by
  show V m c main_arg1 (((cfg0.win 1).blk t).view.emb (ix2 q k)) = _
  rw [w_block_emb]

/-- The bias the body reads at any point is the bias row. -/
theorem b_block (c : Dev nD) (t : Fin cfg0.N) (u : Fin 1) (q : Fin 2048) :
    iblk m c 2 t (ix2 u q) = V m c main_v0 (ix2 u q) := by
  show V m c main_v0 (((cfg0.win 2).blk t).view.emb (ix2 u q)) = _
  rw [b_block_emb]

/-! ## The bias row as the region finds it -/

/-- Before the region one host operation lays the 2048 bias entries out as one row; nothing else
    writes that array. -/
theorem bias_row (c : Dev nD) :
    (V m c main_v0 : S1x2048.Idx → EReal)
      = shapeCast S1x2048 (m ((c : Thread nD τ).loc main_arg2) : S2048.Idx → EReal) shapeCasts_S2048_S1x2048 := by
  dsimp only [Gen.V, Gen.hostOps0]; after_results; rfl

/-! ## What each point writes back -/

/-- Point `t` writes back block `t` of the target function of x, the weights and the bias row as the
    region finds them. -/
theorem flushed_eq (c : Dev nD) (t : Fin cfg0.N) :
    (dats m 0 c).flushed 3 t
      = ((cfg0.win 3).blk t).view.read (Elt Ideal)
          (Cert.Spec.resid (V m c main_arg0) (V m c main_arg1) (V m c main_v0)) := by
  rw [Value.flushed3]
  unfold Gen.out0_3
  rw [View.canon_unit_zero zero_offsets]
  simp only [View.ld_unit_zero (S := S256x2048) zero_offsets, View.ld_unit_zero (S := S2048x2048) zero_offsets,
    View.ld_unit_zero (S := S1x2048) zero_offsets]
  funext j
  obtain ⟨p, q, rfl⟩ : ∃ (p : Fin 256) (q : Fin 2048), j = ix2 p q := ⟨j 0, j 1, eq_ix2 j⟩
  show k0_pay1 (iblk m c 0 t) (iblk m c 1 t) (iblk m c 2 t) (ix2 p q)
    = Cert.Spec.resid (V m c main_arg0) (V m c main_arg1) (V m c main_v0) (((cfg0.win 3).blk t).view.emb (ix2 p q))
  rw [out_block_emb, Cert.Spec.resid_ix2]
  refine (block_apply (iblk m c 0 t) (iblk m c 1 t) (iblk m c 2 t) p q).trans ?_
  unfold Cert.Spec.residAt
  simp only [x_block m c t, w_block m c t, b_block m c t]

/-! ## The 16 blocks tile the array -/

/-- An index of the result is in point `t`'s block iff each coordinate is in the block's range on
    its axis. -/
theorem mem_block (t : Fin cfg0.N) (i : S4096x2048.Idx) :
    i ∈ ((cfg0.win 3).blk t).view.set
      ↔ ∀ a : Fin 2, win0_3.index t a * S256x2048.size a ≤ (i a).val
          ∧ (i a).val < win0_3.index t a * S256x2048.size a + S256x2048.size a := by
  show i ∈ ((View.whole main_v1).slice (win0_3.rect t)).set ↔ _
  rw [View.set_slice_whole, Rect.mem_set_unit]
  exact Iff.rfl

/-- Row `r` of the result is in the block of point `r / 256`, and every point writes back. -/
theorem cover (i : S4096x2048.Idx) :
    ∃ t : Fin cfg0.N, (cfg0.win 3).flush t = true ∧ i ∈ ((cfg0.win 3).blk t).view.set := by
  have hi0 : (i 0).val < 4096 := (i 0).isLt
  have hi1 : (i 1).val < 2048 := (i 1).isLt
  obtain ⟨t, ht⟩ : ∃ t : Fin cfg0.N, t.val = (i 0).val / 256 :=
    ⟨⟨(i 0).val / 256, lt_of_lt_of_eq (by omega : (i 0).val / 256 < 16) N_0.symm⟩, rfl⟩
  obtain ⟨-, -, -, -, -, -, e0, e1⟩ := index_facts t
  refine ⟨t, flush0_3 t, ?_⟩
  rw [mem_block]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 2048 ≤ (i 1).val ∧ (i 1).val < win0_3.index t (1 : Fin 2) * 2048 + 2048
    omega

/-! ## The array after the run -/

/-- the array after the run is the target function of the argument arrays -/
theorem final (c : Dev nD) : (dats m 0 c).arrAt 3 cfg0.N
      = Cert.Spec.resid (m ((c : Thread nD τ).loc main_arg0)) (m ((c : Thread nD τ).loc main_arg1))
          (shapeCast S1x2048 (m ((c : Thread nD τ).loc main_arg2)) shapeCasts_S2048_S1x2048) :=
  ((dats m 0 c).arrAt_eq_of_cover 3 (Cert.Spec.resid (V m c main_arg0) (V m c main_arg1) (V m c main_v0))
      (fun t _ => flushed_eq m c t) cover).trans
    (by rw [V_main_arg0 m c, V_main_arg1 m c, bias_row m c])

/-- Every run of the program ends with the result array at the target function of the argument
    arrays, and the argument arrays as they were. -/
theorem run : θ_run defs (onTc (τ := τ) (main (F := Ideal))) ⟨m, fun _ => 0, ρ⟩ fun r => ∀ c : Dev nD,
      r.2.mem ((c : Thread nD τ).loc main_v1)
        = Cert.Spec.resid (m ((c : Thread nD τ).loc main_arg0)) (m ((c : Thread nD τ).loc main_arg1))
            (shapeCast S1x2048 (m ((c : Thread nD τ).loc main_arg2)) shapeCasts_S2048_S1x2048)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KValue

end
-- ==== Proof.RefFrame.lean ====
/-
  The reference program's one kernel region, run from any memory: termination, no fault, and what
  every array holds at the end.

  The region has a grid of 4 column tiles by 16 row tiles. At a point (j, i) the body is handed the
  row tile i of x whole (256 rows, all 2048 columns: the left operand of the product), the 256 by 512
  piece of x at row tile i and column tile j (the residual), rows 512 j .. 512 j + 511 of W (all 2048
  columns), and columns 512 j .. of the bias row; it stores (residual + x-tile times W-rows transposed)
  + bias into the 256 by 512 piece of the result at (i, j).

  TWO of the input windows read the SAME array, x. The array's full ownership is therefore dealt to
  the two windows in halves when the region is entered, each window only ever reading its half, and
  the halves are rejoined by the pipeline's exit; everything else is the plainest pipelined kernel:
  every input buffer holds its window's block at every point, the one store covers the output
  buffer, nothing is carried between points.
-/
import proofs.«131591_g2000205376503332_pallasbulk_940_2_alg».proof.Proof.Gen.ReferenceIdeal.Launch
import proofs.«131591_g2000205376503332_pallasbulk_940_2_alg».proof.Proof.Gen.ReferenceIdeal.Skeleton
import proofs.«131591_g2000205376503332_pallasbulk_940_2_alg».proof.Proof.Gen.ReferenceIdeal.Points
import Idealize.ShloMosaic.Lib.Pipeline.FrameBody
import Idealize.ShloMosaic.Lib.Ring
import Idealize.ShloMosaic.Lib.Tactic

set_option maxRecDepth 16384

noncomputable section

namespace Cert.ReferenceIdeal.RFrame

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- What each buffer of the core holds when the region is entered: the launch contents after the one
    host operation before it (the bias reshaped to a row). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes only the reshaped bias: x is as launched, -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
/-- W is as launched, -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
/-- and so is the bias itself. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its block in place holds that block at every point, whether
    the point fetched it or the block index did not move since the last fetch. One statement per
    input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rX : Rect S256x2048 := Rect.unit (s := S256x2048) ![0, 0] S256x2048.size inb_S256x2048_S256x2048_0_0
abbrev rW : Rect S512x2048 := Rect.unit (s := S512x2048) ![0, 0] S512x2048.size inb_S512x2048_S512x2048_0_0
abbrev rO : Rect S256x512 := Rect.unit (s := S256x512) ![0, 0] S256x512.size inb_S256x512_S256x512_0_0
abbrev rB : Rect S1x512 := Rect.unit (s := S1x512) ![0, 0] S1x512.size inb_S1x512_S1x512_0_0

/-- What the output buffer holds after the body, from the four input buffers' contents: its one store,
    of the body's arithmetic on the loaded x tile, W rows, residual piece and bias piece. -/
def outTile (x0 : Vec F S256x2048 .f32) (x1 : Vec F S256x512 .f32) (x2 : Vec F S512x2048 .f32) (x3 : Vec F S1x512 .f32) : Vec F S256x512 .f32 :=
  View.canon [⟨rO, k0_pay1 (View.ld x0 rX) (View.ld x2 rW) (View.ld x1 rO) (View.ld x3 rB)⟩]

/-- The one store is of the whole buffer. -/
theorem outTile_cover (p0 : Vec F S256x512 .f32) (y : S256x512.Idx) :
    ∃ pc ∈ ([⟨rO, p0⟩] : List (View.Piece (Elt F) S256x512 .f32)), y ∈ pc.1.set :=
  View.cover_of_tiled [⟨rO, p0⟩] S256x512.size (by rfl) y

/-! ## The body's triple -/

set_option maxHeartbeats 1000000 in
/-- The body on whole buffers, the inputs' at contents `x0 … x3` and the output's at anything, runs to
    the continuation with the inputs' as they were and the output's at `outTile` of them. -/
theorem sound_kernel (c : Dev nD) (E : Set ℕ) (i : grid0.Coords) (arg2 : Memref sig .tc .vmem S256x2048 .f32) (harg2 : arg2.IsWhole) (arg3 : Memref sig .tc .vmem S256x512 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole)
    (x0 : Vec F S256x2048 .f32) (x1 : Vec F S256x512 .f32) (x2 : Vec F S512x2048 .f32) (x3 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outTile x0 x1 x2 x3)) -∗ K ⟨⟩))
      ⊢ wp frame (wpE (defs₀ (F := F)) Variants.none c none) E (cc0__kernel_col_tiled i arg2 harg2 arg3 harg3 arg4 harg4 arg5 harg5 arg6 harg6) K := by
  simp only [cc0__kernel_col_tiled_eq_skeleton]; unfold cc0__kernel_col_tiled_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outTile_cover _)

/-! ## The pipeline's proof data -/

/-- On core `c`: the arrays as the region finds them; after the body at point `t` each input buffer at
    its block and the output buffer at `outTile` of the four blocks; between points only the core's
    scoped buffers that are no staging buffer; nothing owed. The two windows on x hold it at the two
    halves of the full share, every other input at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outTile (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outTile (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the input buffers hold their blocks, so the body's triple applies; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

end Cert.ReferenceIdeal.RFrame

end
-- ==== Proof.RefRun.lean ====
/-
  The reference program's run: from any memory with zero counters every weakly fair execution of the
  program terminates without a fault, every array of the region ends at what the pipeline's
  write-backs make of the proof data, and every other unscoped buffer ends as the region found it.

  The region is entered with the buffers behind the windows' arrays each whole. x stands behind two
  input windows: its ownership is cut in two halves, one per window, which is all an input window
  needs (it is only ever read); W, the bias row and the result go whole to their one window.
-/
import proofs.«131591_g2000205376503332_pallasbulk_940_2_alg».proof.Proof.RefFrame

set_option maxRecDepth 16384

noncomputable section

namespace Cert.ReferenceIdeal.RFrame

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the five windows' arrays. -/
theorem arrRefs_eq : (Finset.univ.image (Pipeline.arrRef spec0) : Finset (Ref sig .tc)) = [main_arg0, main_arg1, main_v0, main_v1].toFinset := by
  decide

/-- Those buffers, each whole at contents `W`, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0) ∗ (((c : Thread nD τ).loc main_v1) ↦{fullShare} W main_v1)) :=
  bigSep_eq_bigSepL_of_eq [main_arg0, main_arg1, main_v0, main_v1] arrRefs_eq (by decide) _

/-- Entering the region: the four buffers behind the arrays, each whole at its entry contents, are the
    five windows' arrays at the shares the proof data names, x's cut in its two halves. -/
theorem arrays_dealt (c : Dev nD) :
    (Pipeline.arrBufs spec0 c (V m c) : sProp 𝕄) ⊢ (dats m 0 c).arrays (fun w => (dats m 0 c).arrAt w 0) := by
  rw [arrBufs_eq]
  unfold Dat.arrays
  rw [bigSep_W0]
  simp only [View.set_whole]
  rw [show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl]
  iintro ⟨H0, H1, H2, H3⟩
  ihave H0' := (pointsTo_share (PosShare.mem_left_op_right fullShare)).1 $$ H0
  icases H0' with ⟨Ha, Hb⟩
  isplitl [Ha]; · iexact Ha
  isplitl [Hb]; · iexact Hb
  isplitl [H1]; · iexact H1
  isplitl [H2]; · iexact H2
  iexact H3

/-! ## The run -/

/-- Between points the body keeps only the core's scoped buffers that are no staging buffer. -/
theorem Φ_eq (c : Dev nD) (t : Fin (cfg0.N + 1)) :
    (dats m 0 c).Φ t = Pipeline.scopedRest (Ix := Unit) (Name := ℕ) (U := UR sig nD τ) (Lvl := ℕ) (Val := Elt F) spec0 c := rfl

/-- From any memory with zero counters: the program terminates, nothing faults, every array of the
    region ends at what the write-backs make of the proof data and every other unscoped buffer as the
    region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := arrays_dealt m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [Φ_eq]
      iintro ⟨-, H⟩
      iexact H)
    (hout := fun c => by
      rw [Φ_eq]
      iintro H
      isplitr; · iempintro
      iexact H)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h => h)

/-! ## What the run leaves: the arguments, and the result block by block -/

/-- x ends as launched: both windows on it only read it. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- W ends as launched: its window only reads it. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))

/-- The bias ends as launched: no window stages it, and the run leaves such buffers as the region found them. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The result array after the run is what the write-backs make of the entry contents. -/
theorem post_result (r : PUnit × MemSt nD τ sig (Elt F)) (h : Pipeline.FramePost cfgs (dats m) 0 (V m) r) (c : Dev nD) :
    r.2.mem ((c : Thread nD τ).loc main_v1) = (dats m 0 c).arrAt 4 cfg0.N :=
  (h c).1 4

/-- The program runs, and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨kept_main_arg0 m r h c, kept_main_arg1 m r h c, kept_main_arg2 m r h c⟩) (run_main m ρ)

/-- What point `t` writes back to the result: the body's output tile of the four input blocks at `t`. -/
theorem flushed_result (c : Dev nD) (t : Fin cfg0.N) :
    (dats m 0 c).flushed 4 t = (cfg0.win 4).cut (grid0.coords t) (outTile (iblk m c 0 t) (iblk m c 1 t) (iblk m c 2 t) (iblk m c 3 t)) := by
  show (cfg0.win 4).cut (grid0.coords t) ((dats m 0 c).after 4 t) = _
  rw [after4]

/-- The run with the result array named, the arguments unchanged. -/
theorem run_blocks : θ_run defs (onTc (τ := τ) (main (F := F))) ⟨m, fun _ => 0, ρ⟩ fun r => ∀ c : Dev nD,
      r.2.mem ((c : Thread nD τ).loc main_v1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post_result m r h c, kept_main_arg0 m r h c, kept_main_arg1 m r h c, kept_main_arg2 m r h c⟩)
    (run_main m ρ)

end Cert.ReferenceIdeal.RFrame

end
-- ==== Proof.RefValue.lean ====
import proofs.«131591_g2000205376503332_pallasbulk_940_2_alg».proof.Proof.RefRun
import proofs.«131591_g2000205376503332_pallasbulk_940_2_alg».proof.Proof.Spec
import proofs.«131591_g2000205376503332_pallasbulk_940_2_alg».proof.Proof.LibDotNT
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

/-
  The reference program's result array is the target function of its argument arrays.

  The reference cuts the 4096 by 2048 result into 16 row tiles of 256 rows by 4 column tiles of 512
  columns. At the tile in row tile i and column tile j it holds rows 256 i .. of x whole (all 2048
  columns), the 256 by 512 piece of x at that tile (the residual), rows 512 j .. of the weight matrix
  W (all 2048 columns) and columns 512 j .. of the bias row, and writes
      tile[p, q] = (residual[p, q] + ∑ k, xrows[p, k] * Wrows[q, k]) + bias[q]
  back over the same tile of the result. Row p of the tile is row 256 i + p of the array and column q
  is column 512 j + q; row q of the W rows is row 512 j + q of W, which is the result's column. The 64
  tiles fill the array: so the array after the run is the target function at every index.
-/

set_option maxRecDepth 16384

noncomputable section

open scoped BigOperators

namespace Cert.ReferenceIdeal.RValue

open Cert.ReferenceIdeal Cert.ReferenceIdeal.Gen Cert.ReferenceIdeal.RFrame Idealize.ShloMosaic Idealize.ShloMosaic.TcCoe
  Idealize.ShloMosaic.ValueIdx Idealize.SL.Sem
open Idealize.ShloMosaic.Pipeline (Dat)

/-! ## One tile's arithmetic at an index -/

/-- The body's product contracts axis 1 of both operands: it is the product of the rows of x by the
    transpose of the rows of W. -/
theorem dot_is_nt : dot_S256x2048_S512x2048_S256x512_1_1_0_0_n_n
    = DotNT.ntDims 256 2048 512 dot_S256x2048_S512x2048_S256x512_1_1_0_0_n_n_wf := rfl

/-- What the body computes from 256 rows `x0` of x, 512 rows `x1` of W, the residual piece `x3` and
    the bias piece `x5`, at row `p` and column `q` of the tile: the residual entry plus row `p` of the
    rows of x against row `q` of the rows of W, then the bias entry of column `q`. -/
theorem tile_apply (x0 : Vec Ideal S256x2048 .f32) (x1 : Vec Ideal S512x2048 .f32) (x3 : Vec Ideal S256x512 .f32)
    (x5 : Vec Ideal S1x512 .f32) (p : Fin 256) (q : Fin 512) :
    k0_pay1 x0 x1 x3 x5 (ix2 p q)
      = (x3 (ix2 p q) + ∑ k : Fin 2048, x0 (ix2 p k) * x1 (ix2 q k)) + x5 (ix2 (0 : Fin 1) q) := by
  unfold k0_pay1
  show ((x3 (ix2 p q) : EReal)
        + (FloatOps.matmul (F := Ideal) (φ₁ := .f32) (φ₂ := .f32) dot_S256x2048_S512x2048_S256x512_1_1_0_0_n_n (some .fp32) x0 x1
            (constant (F := Ideal) S256x512 .f32 0x00000000#32) (ix2 p q) : EReal))
      + (broadcastTo S256x512 (shapeCast S1x512 x5 shapeCasts_S1x512_S1x512) broadcasts_S1x512_S256x512 (ix2 p q) : EReal) = _
  rw [dot_is_nt, shapeCast_self]
  refine congrArg₂ (· + ·) (congrArg (x3 (ix2 p q) + ·) ?_) ?_
  · exact DotNT.matmul_zero_nt_apply _ (some .fp32) x0 x1 p q
  · exact broadcastTo_1b_ab_apply x5 _ p q

/-! ## Where a tile's blocks sit in their arrays -/

variable (m : (ℓ : Loc nD τ sig) → Buf (Elt Ideal) ℓ) (ρ : Dev nD → PrngReg)

theorem zero_offsets : (![0, 0] : Fin 2 → Nat) = fun _ => 0 :=
  funext fun a => by match a with | ⟨0, _⟩ => rfl | ⟨1, _⟩ => rfl

/-- The index maps, decided once over the 64 grid points, relative to the result's tile (row tile,
    column tile): the rows of x are at block (row tile, 0), the residual piece at the result's own
    block, the rows of W at block (column tile, 0), the bias piece at block (0, column tile); the row
    tile is below 16 and the column tile below 4. -/
theorem index_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = win0_4.index t (1 : Fin 2)
    ∧ win0_2.index t (0 : Fin 2) = win0_4.index t (1 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 15 ∧ win0_4.index t (1 : Fin 2) ≤ 3 :=
  (by decide +kernel : ∀ t : Fin grid0.N, _)

/-- Every tile of the 16 by 4 tiling is some point's. -/
theorem index_onto : ∀ (r : Fin 16) (s : Fin 4), ∃ t : Fin cfg0.N, win0_4.index t = ![r.val, s.val] :=
  (by decide +kernel : ∀ (r : Fin 16) (s : Fin 4), ∃ t : Fin grid0.N, win0_4.index t = ![r.val, s.val])

theorem rowTile_le (t : Fin cfg0.N) : win0_4.index t (0 : Fin 2) ≤ 15 := (index_facts t).2.2.2.2.2.2.2.2.1
theorem colTile_le (t : Fin cfg0.N) : win0_4.index t (1 : Fin 2) ≤ 3 := (index_facts t).2.2.2.2.2.2.2.2.2

/-- Row `p` of the tile at point `t` is row `256 i + p` of the array, `i` the point's row tile. -/
def rowOf (t : Fin cfg0.N) (p : Fin 256) : Fin 4096 :=
  ⟨256 * win0_4.index t (0 : Fin 2) + p.val, by have := rowTile_le t; have := p.isLt; omega⟩

/-- Column `q` of the tile at point `t` is column `512 j + q` of the array, `j` the point's column tile. -/
def colOf (t : Fin cfg0.N) (q : Fin 512) : Fin 2048 :=
  ⟨512 * win0_4.index t (1 : Fin 2) + q.val, by have := colTile_le t; have := q.isLt; omega⟩

/-- An entry of the rows of x at point `t` sits in x at the tile's row offset, same column. -/
theorem x_rows_emb (t : Fin cfg0.N) (p : Fin 256) (k : Fin 2048) :
    ((cfg0.win 0).blk t).view.emb (ix2 p k) = ix2 (rowOf t p) k := by
  obtain ⟨e0, e1, -⟩ := index_facts t
  funext a; apply Fin.ext
  match a with
  | ⟨0, _⟩ => show win0_0.index t (0 : Fin 2) * 256 + 1 * p.val = 256 * win0_4.index t (0 : Fin 2) + p.val; omega
  | ⟨1, _⟩ => show win0_0.index t (1 : Fin 2) * 2048 + 1 * k.val = k.val; omega

/-- An entry of the residual piece at point `t` sits in x at the tile's row and column offsets. -/
theorem x_piece_emb (t : Fin cfg0.N) (p : Fin 256) (q : Fin 512) :
    ((cfg0.win 1).blk t).view.emb (ix2 p q) = ix2 (rowOf t p) (colOf t q) := by
  obtain ⟨-, -, e0, e1, -⟩ := index_facts t
  funext a; apply Fin.ext
  match a with
  | ⟨0, _⟩ => show win0_1.index t (0 : Fin 2) * 256 + 1 * p.val = 256 * win0_4.index t (0 : Fin 2) + p.val; omega
  | ⟨1, _⟩ => show win0_1.index t (1 : Fin 2) * 512 + 1 * q.val = 512 * win0_4.index t (1 : Fin 2) + q.val; omega

/-- Row `q` of the rows of W at point `t` is the row of W numbered as the tile's column `q`. -/
theorem w_rows_emb (t : Fin cfg0.N) (q : Fin 512) (k : Fin 2048) :
    ((cfg0.win 2).blk t).view.emb (ix2 q k) = ix2 (colOf t q) k := by
  obtain ⟨-, -, -, -, e0, e1, -⟩ := index_facts t
  funext a; apply Fin.ext
  match a with
  | ⟨0, _⟩ => show win0_2.index t (0 : Fin 2) * 512 + 1 * q.val = 512 * win0_4.index t (1 : Fin 2) + q.val; omega
  | ⟨1, _⟩ => show win0_2.index t (1 : Fin 2) * 2048 + 1 * k.val = k.val; omega

/-- An entry of the bias piece at point `t` sits in the bias row at the tile's column offset. -/
theorem b_piece_emb (t : Fin cfg0.N) (u : Fin 1) (q : Fin 512) :
    ((cfg0.win 3).blk t).view.emb (ix2 u q) = ix2 u (colOf t q) := by
  obtain ⟨-, -, -, -, -, -, e0, e1, -⟩ := index_facts t
  funext a; apply Fin.ext
  match a with
  | ⟨0, _⟩ => show win0_3.index t (0 : Fin 2) * 1 + 1 * u.val = u.val; omega
  | ⟨1, _⟩ => show win0_3.index t (1 : Fin 2) * 512 + 1 * q.val = 512 * win0_4.index t (1 : Fin 2) + q.val; omega

/-- An entry of the result's tile at point `t` sits in the result at the tile's row and column offsets. -/
theorem out_tile_emb (t : Fin cfg0.N) (p : Fin 256) (q : Fin 512) :
    ((cfg0.win 4).blk t).view.emb (ix2 p q) = ix2 (rowOf t p) (colOf t q) := by
  funext a; apply Fin.ext
  match a with
  | ⟨0, _⟩ => show win0_4.index t (0 : Fin 2) * 256 + 1 * p.val = 256 * win0_4.index t (0 : Fin 2) + p.val; omega
  | ⟨1, _⟩ => show win0_4.index t (1 : Fin 2) * 512 + 1 * q.val = 512 * win0_4.index t (1 : Fin 2) + q.val; omega

/-- The rows of x the body reads at point `t`, entry by entry. -/
theorem x_rows (c : Dev nD) (t : Fin cfg0.N) (p : Fin 256) (k : Fin 2048) :
    iblk m c 0 t (ix2 p k) = V m c main_arg0 (ix2 (rowOf t p) k) := by
  show V m c main_arg0 (((cfg0.win 0).blk t).view.emb (ix2 p k)) = _
  rw [x_rows_emb]

/-- The residual piece the body reads at point `t`: the tile's own entries of x. -/
theorem x_piece (c : Dev nD) (t : Fin cfg0.N) (p : Fin 256) (q : Fin 512) :
    iblk m c 1 t (ix2 p q) = V m c main_arg0 (ix2 (rowOf t p) (colOf t q)) := by
  show V m c main_arg0 (((cfg0.win 1).blk t).view.emb (ix2 p q)) = _
  rw [x_piece_emb]

/-- The rows of W the body reads at point `t`, entry by entry. -/
theorem w_rows (c : Dev nD) (t : Fin cfg0.N) (q : Fin 512) (k : Fin 2048) :
    iblk m c 2 t (ix2 q k) = V m c main_arg1 (ix2 (colOf t q) k) := by
  show V m c main_arg1 (((cfg0.win 2).blk t).view.emb (ix2 q k)) = _
  rw [w_rows_emb]

/-- The bias piece the body reads at point `t`: the tile's columns of the bias row. -/
theorem b_piece (c : Dev nD) (t : Fin cfg0.N) (u : Fin 1) (q : Fin 512) :
    iblk m c 3 t (ix2 u q) = V m c main_v0 (ix2 u (colOf t q)) := by
  show V m c main_v0 (((cfg0.win 3).blk t).view.emb (ix2 u q)) = _
  rw [b_piece_emb]

/-! ## The bias row as the region finds it -/

/-- Before the region one host operation lays the 2048 bias entries out as one row; nothing else
    writes that array. -/
theorem bias_row (c : Dev nD) :
    (V m c main_v0 : S1x2048.Idx → EReal)
      = shapeCast S1x2048 (m ((c : Thread nD τ).loc main_arg2) : S2048.Idx → EReal) shapeCasts_S2048_S1x2048 := by
  dsimp only [RFrame.V, Gen.hostOps0]; after_results; rfl

/-! ## What each point writes back -/

/-- Point `t` writes back its tile of the target function of x, the weights and the bias row as the
    region finds them. -/
theorem flushed_eq (c : Dev nD) (t : Fin cfg0.N) :
    (dats m 0 c).flushed 4 t
      = ((cfg0.win 4).blk t).view.read (Elt Ideal)
          (Cert.Spec.resid (V m c main_arg0) (V m c main_arg1) (V m c main_v0)) := by
  rw [flushed_result]
  unfold outTile
  rw [View.canon_unit_zero zero_offsets]
  simp only [View.ld_unit_zero (S := S256x2048) zero_offsets, View.ld_unit_zero (S := S512x2048) zero_offsets,
    View.ld_unit_zero (S := S256x512) zero_offsets, View.ld_unit_zero (S := S1x512) zero_offsets]
  funext j
  obtain ⟨p, q, rfl⟩ : ∃ (p : Fin 256) (q : Fin 512), j = ix2 p q := ⟨j 0, j 1, eq_ix2 j⟩
  show k0_pay1 (iblk m c 0 t) (iblk m c 2 t) (iblk m c 1 t) (iblk m c 3 t) (ix2 p q)
    = Cert.Spec.resid (V m c main_arg0) (V m c main_arg1) (V m c main_v0) (((cfg0.win 4).blk t).view.emb (ix2 p q))
  rw [out_tile_emb, Cert.Spec.resid_ix2]
  refine (tile_apply (iblk m c 0 t) (iblk m c 2 t) (iblk m c 1 t) (iblk m c 3 t) p q).trans ?_
  unfold Cert.Spec.residAt
  simp only [x_rows m c t, x_piece m c t, w_rows m c t, b_piece m c t]

/-! ## The 64 tiles fill the array -/

/-- An index of the result is in point `t`'s tile iff each coordinate is in the tile's range on its
    axis. -/
theorem mem_tile (t : Fin cfg0.N) (i : S4096x2048.Idx) :
    i ∈ ((cfg0.win 4).blk t).view.set
      ↔ ∀ a : Fin 2, win0_4.index t a * S256x512.size a ≤ (i a).val
          ∧ (i a).val < win0_4.index t a * S256x512.size a + S256x512.size a := by
  show i ∈ ((View.whole main_v1).slice (win0_4.rect t)).set ↔ _
  rw [View.set_slice_whole, Rect.mem_set_unit]
  exact Iff.rfl

/-- Row `r`, column `s` of the result is in the tile of row tile `r / 256` and column tile `s / 512`,
    and every point writes back. -/
theorem cover (i : S4096x2048.Idx) :
    ∃ t : Fin cfg0.N, (cfg0.win 4).flush t = true ∧ i ∈ ((cfg0.win 4).blk t).view.set := by
  have hi0 : (i 0).val < 4096 := (i 0).isLt
  have hi1 : (i 1).val < 2048 := (i 1).isLt
  obtain ⟨t, ht⟩ := index_onto ⟨(i 0).val / 256, by omega⟩ ⟨(i 1).val / 512, by omega⟩
  have q0 : win0_4.index t (0 : Fin 2) = (i 0).val / 256 := congrFun ht 0
  have q1 : win0_4.index t (1 : Fin 2) = (i 1).val / 512 := congrFun ht 1
  refine ⟨t, flush0_4 t, ?_⟩
  rw [mem_tile]
  intro a
  match a with
  | ⟨0, _⟩ =>
    show win0_4.index t (0 : Fin 2) * 256 ≤ (i 0).val ∧ (i 0).val < win0_4.index t (0 : Fin 2) * 256 + 256
    omega
  | ⟨1, _⟩ =>
    show win0_4.index t (1 : Fin 2) * 512 ≤ (i 1).val ∧ (i 1).val < win0_4.index t (1 : Fin 2) * 512 + 512
    omega

/-! ## The array after the run -/

/-- the array after the run is the target function of the argument arrays -/
theorem final (c : Dev nD) : (dats m 0 c).arrAt 4 cfg0.N
      = Cert.Spec.resid (m ((c : Thread nD τ).loc main_arg0)) (m ((c : Thread nD τ).loc main_arg1))
          (shapeCast S1x2048 (m ((c : Thread nD τ).loc main_arg2)) shapeCasts_S2048_S1x2048) :=
  ((dats m 0 c).arrAt_eq_of_cover 4 (Cert.Spec.resid (V m c main_arg0) (V m c main_arg1) (V m c main_v0))
      (fun t _ => flushed_eq m c t) cover).trans
    (by rw [V_main_arg0 m c, V_main_arg1 m c, bias_row m c])

/-- Every run of the program ends with the result array at the target function of the argument
    arrays, and the argument arrays as they were. -/
theorem run : θ_run defs (onTc (τ := τ) (main (F := Ideal))) ⟨m, fun _ => 0, ρ⟩ fun r => ∀ c : Dev nD,
      r.2.mem ((c : Thread nD τ).loc main_v1)
        = Cert.Spec.resid (m ((c : Thread nD τ).loc main_arg0)) (m ((c : Thread nD τ).loc main_arg1))
            (shapeCast S1x2048 (m ((c : Thread nD τ).loc main_arg2)) shapeCasts_S2048_S1x2048)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.ReferenceIdeal.RValue

end
-- ==== Proof.lean ====
/-
  The kernel and the reference compute, over the extended reals, one and the same array:
      out[p, q] = (x[p, q] + ∑ k, x[p, k] * W[q, k]) + b[q].

  The kernel walks the rows of x in 16 tiles of 256 rows with the whole of W resident; the reference
  walks a 4 by 16 grid of 256 by 512 output tiles, taking the matching 512 rows of W and 512 bias
  entries, and reads the residual piece of x through a second window on the same array. Both add the
  residual to the product first and the bias last, so each output entry is literally the same
  expression of the inputs on both sides: no law of the extended reals is needed beyond naming a
  product's contraction sum by its contracted coordinate, and the inputs' finiteness is never used.

  The three frame claims: the word-level kernel's and the idealized kernel's are the generated frame
  certificates; the reference's is its run (module RefRun) with the result dropped. The idealization
  rewrote nothing, so the preservation claim is trivial. The equivalence sets the kernel's run
  (KernelValue) beside the reference's (RefValue), both ending at the array above.
-/
import proofs.«131591_g2000205376503332_pallasbulk_940_2_alg».proof.Defs
import proofs.«131591_g2000205376503332_pallasbulk_940_2_alg».proof.Proof.Gen.Kernel
import proofs.«131591_g2000205376503332_pallasbulk_940_2_alg».proof.Proof.Gen.Kernel.Frame
import proofs.«131591_g2000205376503332_pallasbulk_940_2_alg».proof.Proof.Gen.KernelIdeal
import proofs.«131591_g2000205376503332_pallasbulk_940_2_alg».proof.Proof.Gen.KernelIdeal.Frame
import proofs.«131591_g2000205376503332_pallasbulk_940_2_alg».proof.Proof.Gen.ReferenceIdeal
import proofs.«131591_g2000205376503332_pallasbulk_940_2_alg».proof.Proof.Gen.Pre_finite_inputs
import proofs.«131591_g2000205376503332_pallasbulk_940_2_alg».proof.Proof.KernelValue
import proofs.«131591_g2000205376503332_pallasbulk_940_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ => Cert.ReferenceIdeal.RFrame.frame m ρ

/-- From memories agreeing on x, W and b both programs run, and both results are the one array
    `Cert.Spec.resid` of those three arguments (the bias laid out as a row). -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
